-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) (main_arg1 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S8192x4096 : Shape := ⟨2, ![8192, 4096]⟩
abbrev S512x4096 : Shape := ⟨2, ![512, 4096]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S512x4096, .f32⟩
  | .local _ .vmem, ⟨5, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S8192x4096.size a
  hwx0_1 : ∀ i : grid0.Coords, EltTy.bits .f32 = 32 ∨ (Rect.block (s := S8192x4096) S512x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .f32 = 32 ∨ (Rect.block (s := S8192x4096) S512x4096.size (cc0_transform_2 i) (hinb0_2 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x4096, .f32⟩
  | .hbm, ⟨3, _⟩ => ⟨S8192x4096, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S8192x4096, .f32⟩
  | .hbm, ⟨16, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)

variable [Facts₀]

class Facts : Prop extends Facts₀ where

variable [Facts]
-- ==== Proof.LibReal.lean ====
/-
  Reals inside the extended reals, and the finiteness precondition read back.

  General facts, independent of any program: the cast of a finite sum of reals; the f32 pattern of -∞; an extended
  real whose absolute value is below +∞ is a real; and one conjunct of a printed "all inputs finite" precondition —
  an and-reduce to a scalar of the elementwise test |x| < +∞ that came out 1 — makes every entry of the array a real.
-/
import Idealize.ShloMosaic.PureOps.Ideal
import Idealize.ShloMosaic.PureOps.Ideal.Laws
import Idealize.ShloMosaic.Lib.ReduceAll
import Idealize.ShloMosaic.Lib.Pipeline.Value
import Idealize.ShloMosaic.Lib.ValueIdx

noncomputable section

open scoped BigOperators

namespace Cert.LibReal

open Idealize.ShloMosaic Idealize.ShloMosaic.ValueIdx

/-- An extended real that is a real. -/
def IsReal (x : EReal) : Prop := ∃ r : ℝ, x = (r : EReal)

/-- The cast of a finite sum of reals is the sum of the casts. -/
theorem coe_sum {ι : Type*} (s : Finset ι) (f : ι → ℝ) :
    ((∑ i ∈ s, f i : ℝ) : EReal) = ∑ i ∈ s, (f i : EReal) := by
  induction s using Finset.cons_induction with
  | empty => simp
  | cons a s ha ih => rw [Finset.sum_cons, Finset.sum_cons, EReal.coe_add, ih]

/-- The f32 pattern of -∞ is the bottom of the extended reals. -/
theorem ofBits_negInf_f32 : Ideal.ofBits .f32 0xFF800000#32 = ⊥ := by simp [Ideal.ofBits, Ideal.ieee]

/-- The f32 pattern of +∞ is the top of the extended reals. -/
theorem ofBits_posInf_f32 : Ideal.ofBits .f32 0x7F800000#32 = ⊤ := by simp [Ideal.ofBits, Ideal.ieee]

/-- The scalar shape has one index. -/
instance : Subsingleton (⟨0, ![]⟩ : Shape).Idx := ⟨fun a b => funext fun d => d.elim0⟩

/-- An extended real whose absolute value is below +∞ is a real. -/
theorem isReal_of_abs_lt_top (x : EReal) (h : max x (-x) < ⊤) : IsReal x := by
  induction x using EReal.rec with
  | bot => simp at h
  | top => simp at h
  | coe r => exact ⟨r, rfl⟩

/-- One conjunct of a finiteness precondition: an and-reduce to a scalar of "|x| < +∞" that is 1 makes every entry of
    x a real, at any shape and whichever axes the reduce names. -/
theorem isReal_of_all {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (e : Host.reduce IntOp.andi (cmpf .olt (Host.absf x) (broadcastInDim s ![] hb (constant (F := Ideal) ⟨0, ![]⟩ .f32 0x7F800000#32)))
      (constantI ⟨0, ![]⟩ 1 1#1) hr hu ix0 = 1#1) (i : s.Idx) : IsReal (x i) := by
  have h1 := Host.reduce_andi_all _ _ hr hu ix0 e i
  rw [cmpf_apply, broadcastInDim_apply ![] hb _ i ix0 (fun a => a.elim0)] at h1
  have h3 : Ideal.cmp .olt (max (x i) (-(x i))) (Ideal.ofBits .f32 0x7F800000#32) = 1#1 := h1
  rw [ofBits_posInf_f32] at h3
  refine isReal_of_abs_lt_top _ ?_
  by_contra hn
  unfold Ideal.cmp at h3
  simp [hn] at h3

end Cert.LibReal

end
-- ==== Proof.FiniteInputs.lean ====
/-
  The finiteness precondition, read back: when the printed test "every entry of both inputs has absolute value
  below +∞" comes out 1, every entry of each input array is a real number. The test is the conjunction of two
  all-reductions, one per input; each conjunct is read by the general lemma on such a reduction.
-/
import proofs.«401467_j35631048688101_3_alg».proof.Pre_finite_inputs
import proofs.«401467_j35631048688101_3_alg».proof.Proof.LibReal
import Idealize.ShloMosaic.Lib.Affine

noncomputable section

namespace Cert.FiniteInputs

open Idealize.ShloMosaic Idealize.ShloMosaic.ValueIdx

/-- Under the precondition both input arrays hold reals at every index. -/
theorem reals_of_pre [hF : Cert.Pre_finite_inputs.Facts]
    (x h : FVec Ideal Cert.Pre_finite_inputs.S8192x4096 .f32)
    (e : Cert.Pre_finite_inputs.fn (F := Ideal) x h = fun _ => 1#1) :
    (∀ i, Cert.LibReal.IsReal (x i)) ∧ (∀ i, Cert.LibReal.IsReal (h i)) := by
  have e0 := congrFun e ix0
  dsimp only [Cert.Pre_finite_inputs.fn, andi] at e0
  obtain ⟨e1, e2⟩ := IntOp.andi_eq_one.1 e0
  exact ⟨fun i => Cert.LibReal.isReal_of_all x _ _ _ e1 i, fun i => Cert.LibReal.isReal_of_all h _ _ _ e2 i⟩

end Cert.FiniteInputs

end
-- ==== Proof.GateLaw.lean ====
/-
  The gate law behind this certificate, away from any program.

  Over the reals the logistic function is an affine image of a hyperbolic tangent at half the argument:
      1/2 · (1 + tanh (x/2)) = 1 / (1 + e^(-x)).
  With a = e^(x/2) > 0 one has tanh (x/2) = (a - 1/a) / (a + 1/a), so the left side is a / (a + 1/a) = 1 / (1 + 1/a²),
  and 1/a² = e^(-x).

  With that gate g, the two ways of blending a state h with t = tanh x agree over the reals,
      t + g · (h - t) = g · h + (1 - g) · t,
  by distributing g over the difference; every quantity here is a real, so the same equation holds between the
  extended reals they denote. The float words 0x3F000000 and 0x3F800000 denote 1/2 and 1.
-/
import Idealize.ShloMosaic.PureOps.Ideal

noncomputable section

namespace Cert.GateLaw

open Idealize.ShloMosaic

/-- The f32 word of 0.5 denotes the real 1/2. -/
theorem ofBits_half : Ideal.ofBits .f32 0x3F000000#32 = ((1 / 2 : ℝ) : EReal) := by
  simp [Ideal.ofBits, Ideal.ieee, -EReal.coe_mul]; norm_num

/-- The f32 word of 1.0 denotes the real 1. -/
theorem ofBits_one : Ideal.ofBits .f32 0x3F800000#32 = ((1 : ℝ) : EReal) := by
  simp [Ideal.ofBits, Ideal.ieee, -EReal.coe_mul]; norm_num

/-- The logistic function as half of one plus the hyperbolic tangent at half the argument. -/
theorem half_one_add_tanh_half (x : ℝ) :
    (1 / 2 : ℝ) * (1 + Real.tanh ((1 / 2) * x)) = 1 / (1 + Real.exp (-x)) := by
  have ha : 0 < Real.exp ((1 / 2) * x) := Real.exp_pos _
  have hb : Real.exp (-((1 / 2) * x)) = (Real.exp ((1 / 2) * x))⁻¹ := Real.exp_neg _
  have hx : Real.exp (-x) = (Real.exp ((1 / 2) * x))⁻¹ * (Real.exp ((1 / 2) * x))⁻¹ := by
    rw [← Real.exp_neg, ← Real.exp_add]; congr 1; ring
  rw [Real.tanh_eq, hb, hx]
  field_simp
  ring

/-- One plus a positive exponential is not zero. -/
theorem one_add_exp_ne_zero (x : ℝ) : (1 + Real.exp (-x) : ℝ) ≠ 0 :=
  ne_of_gt (add_pos one_pos (Real.exp_pos _))

/-- The blend over the reals: with the gate written through the half-argument tangent on the left and as the
    logistic quotient on the right, t + g·(h - t) = g·h + (1 - g)·t. -/
theorem blend_real (x h : ℝ) :
    Real.tanh x + ((1 / 2 : ℝ) * (1 + Real.tanh ((1 / 2) * x))) * (h - Real.tanh x)
      = (1 * (1 / (1 + Real.exp (-x)))) * h + (1 - 1 * (1 / (1 + Real.exp (-x)))) * Real.tanh x := by
  rw [half_one_add_tanh_half]; ring

/-- The same blend between the extended reals the two programs compute at a real input x and a real state h: on the
    left the logistic quotient 1 / (1 + e^(-x)) and g·h + (1 - g)·tanh x, on the right the half-argument tangent
    and tanh x + g·(h - tanh x). Every intermediate value is a real, so the equation is the cast of `blend_real`. -/
theorem blend (a b : ℝ) :
    Ideal.div (Ideal.ofBits .f32 0x3F800000#32) (Ideal.ofBits .f32 0x3F800000#32 + Ideal.exp (-(a : EReal))) * (b : EReal)
        + (Ideal.ofBits .f32 0x3F800000#32
            - Ideal.div (Ideal.ofBits .f32 0x3F800000#32) (Ideal.ofBits .f32 0x3F800000#32 + Ideal.exp (-(a : EReal))))
          * Ideal.tanh (a : EReal)
      = Ideal.tanh (a : EReal)
        + Ideal.ofBits .f32 0x3F000000#32
            * (Ideal.ofBits .f32 0x3F800000#32 + Ideal.tanh (Ideal.ofBits .f32 0x3F000000#32 * (a : EReal)))
          * ((b : EReal) - Ideal.tanh (a : EReal)) := by
  rw [ofBits_one, ofBits_half, ← EReal.coe_neg, Ideal.exp_coe, ← EReal.coe_add, Ideal.div_coe (one_add_exp_ne_zero a),
    ← EReal.coe_mul (1 / 2) a, Ideal.tanh_coe, Ideal.tanh_coe]
  simp only [← EReal.coe_mul, ← EReal.coe_add, ← EReal.coe_sub]
  exact congrArg _ (blend_real a b).symm

end Cert.GateLaw

end
-- ==== Proof.Bridge.lean ====
/-
  The reference's result term and the kernel's whole-array function are one function of real inputs.

  At an index where the input x and the state h are reals, the reference computes g·h + (1 - g)·tanh x with the gate
  g = 1 / (1 + e^(-x)), and the kernel computes tanh x + g'·(h - tanh x) with g' = 1/2 · (1 + tanh (x/2)). Both sides
  are pointwise, so the equation is the gate law at each index.
-/
import proofs.«401467_j35631048688101_3_alg».proof.Proof.Gen.KernelIdeal.Value
import proofs.«401467_j35631048688101_3_alg».proof.Proof.Gen.ReferenceIdeal.Run
import proofs.«401467_j35631048688101_3_alg».proof.Proof.GateLaw
import proofs.«401467_j35631048688101_3_alg».proof.Proof.LibReal

noncomputable section

namespace Cert.Bridge

open Idealize.ShloMosaic Idealize.ShloMosaic.TcCoe Idealize.SL.Sem
open Cert.ReferenceIdeal Cert.ReferenceIdeal.Gen

/-- The reference's composed term of real-valued arrays x, h is the kernel's function of them, index by index. -/
theorem result_eq (x h : FVec Ideal S8192x4096 .f32)
    (hx : ∀ i, Cert.LibReal.IsReal (x i)) (hh : ∀ i, Cert.LibReal.IsReal (h i)) :
    addf (mulf (Host.divf (broadcastInDim S8192x4096 ![] bcast_S_S8192x4096 (constant S_ .f32 0x3F800000#32)) (addf (broadcastInDim S8192x4096 ![] bcast_S_S8192x4096 (constant S_ .f32 0x3F800000#32)) (Host.exp (Host.negf x)))) h) (mulf (subf (broadcastInDim S8192x4096 ![] bcast_S_S8192x4096 (constant S_ .f32 0x3F800000#32)) (Host.divf (broadcastInDim S8192x4096 ![] bcast_S_S8192x4096 (constant S_ .f32 0x3F800000#32)) (addf (broadcastInDim S8192x4096 ![] bcast_S_S8192x4096 (constant S_ .f32 0x3F800000#32)) (Host.exp (Host.negf x))))) (Host.tanh x))
    = Cert.KernelIdeal.Value.G2 (F := Ideal) x h := by
  funext i
  obtain ⟨a, ha⟩ := hx i
  obtain ⟨b, hb⟩ := hh i
  simp only [Cert.KernelIdeal.Value.G2, mulf, addf, subf, Host.divf, Host.exp, Host.negf, Host.tanh, broadcastInDim, constant,
    Ideal.hostDivf_def, Ideal.mulf_def, Ideal.addf_def, Ideal.subf_def, Ideal.tanh_def, Ideal.hostUnary_exp_def, Ideal.hostUnary_tanh_def,
    Ideal.hostNegf_def, Ideal.negf_def, Ideal.ofBits_def, ha, hb]
  exact Cert.GateLaw.blend a b

end Cert.Bridge

end
-- ==== Proof.lean ====
/-
  The claim: a one-step gated recurrent update, y = g·h + (1 - g)·tanh x with g the logistic function of x, computed
  by a kernel that tiles the rows into 16 blocks and writes the gate as 1/2·(1 + tanh (x/2)) and the blend as
  tanh x + g·(h - tanh x), against the plain array expression.

  The kernel's run leaves its output array at one pointwise function of the two argument arrays, and the reference's
  run leaves its result at the composed term of its operations; both come from the modules generated for the two
  programs. What is proved here by hand is that the two are the same function: the precondition makes every entry of
  both inputs a real (Proof/FiniteInputs.lean), and at real entries the two expressions agree by the identity
  1/2·(1 + tanh (x/2)) = 1 / (1 + e^(-x)) and distributivity over the reals (Proof/GateLaw.lean, Proof/Bridge.lean).
  Finiteness is what the proof uses: distributing the gate over the difference h - tanh x is a law of the reals, and
  the precondition puts every entry there, so no convention of the extended reals at the infinities is met.
  The three frame claims are the programs' runs with the value dropped; the idealization rewrote nothing.
-/
import proofs.«401467_j35631048688101_3_alg».proof.Defs
import proofs.«401467_j35631048688101_3_alg».proof.Proof.Gen.Kernel.Frame
import proofs.«401467_j35631048688101_3_alg».proof.Proof.Gen.KernelIdeal.Value
import proofs.«401467_j35631048688101_3_alg».proof.Proof.Gen.Pre_finite_inputs
import proofs.«401467_j35631048688101_3_alg».proof.Proof.Gen.ReferenceIdeal.Run
import proofs.«401467_j35631048688101_3_alg».proof.Proof.FiniteInputs
import proofs.«401467_j35631048688101_3_alg».proof.Proof.Bridge
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Both programs end with the same array: the kernel's run gives its pointwise function of the arguments, the
    reference's run its composed term of arguments that agree with the kernel's, and under the precondition the
    arguments are arrays of reals, on which the two are equal. -/
theorem algebraic_KernelIdeal_ReferenceIdeal : algebraic_KernelIdeal_ReferenceIdeal := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  obtain ⟨hx, hh⟩ := Cert.FiniteInputs.reals_of_pre _ _ (hpre c)
  rw [(h c).1, (hagree c).1, (hagree c).2]
  exact Cert.Bridge.result_eq _ _ hx hh

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
